-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S128 : Shape := ⟨1, ![128]⟩
abbrev S1 : Shape := ⟨1, ![1]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S8192x128 .f32) (main_arg1 : FVec F S8192x128 .f32) (main_arg2 : FVec F S128 .f32) (main_arg3 : FVec F S1 .f32) (main_arg4 : FVec F S1 .f32) (main_arg5 : IVec S8192 32) (main_arg6 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_v13 main_v16
-- ==== Kernel.lean ====
abbrev S8192x128 : Shape := ⟨2, ![8192, 128]⟩
abbrev S128 : Shape := ⟨1, ![128]⟩
abbrev S1 : Shape := ⟨1, ![1]⟩
abbrev S8192 : Shape := ⟨1, ![8192]⟩
abbrev S1x128 : Shape := ⟨2, ![1, 128]⟩
abbrev S_ : Shape := ⟨0, ![]⟩
abbrev S1x1 : Shape := ⟨2, ![1, 1]⟩
abbrev S8192x1 : Shape := ⟨2, ![8192, 1]⟩
abbrev S1x8192 : Shape := ⟨2, ![1, 8192]⟩
abbrev S8192x8192 : Shape := ⟨2, ![8192, 8192]⟩
abbrev S1024x128 : Shape := ⟨2, ![1024, 128]⟩
abbrev S512x128 : Shape := ⟨2, ![512, 128]⟩
abbrev S1024x1 : Shape := ⟨2, ![1024, 1]⟩
abbrev S1x512 : Shape := ⟨2, ![1, 512]⟩
abbrev S1024x512 : Shape := ⟨2, ![1024, 512]⟩
abbrev S1024 : Shape := ⟨1, ![1024]⟩
abbrev S512 : Shape := ⟨1, ![512]⟩
abbrev S512x1 : Shape := ⟨2, ![512, 1]⟩
abbrev S128x512 : Shape := ⟨2, ![128, 512]⟩

abbrev nBuf : Space → Nat
  | .hbm => 29
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S128, .f32⟩
  | .hbm, ⟨3, _⟩ => ⟨S1, .f32⟩
  | .hbm, ⟨4, _⟩ => ⟨S1, .f32⟩
  | .hbm, ⟨5, _⟩ => ⟨S8192, .i32⟩
  | .hbm, ⟨6, _⟩ => ⟨S8192, .i32⟩
  | .hbm, ⟨7, _⟩ => ⟨S1x128, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x1, .f32⟩
  | .hbm, ⟨26, _⟩ => ⟨S8192x1, .i32⟩
  | .hbm, ⟨27, _⟩ => ⟨S1x8192, .i32⟩
  | .hbm, ⟨28, _⟩ => ⟨S8192x8192, .f32⟩
  | .local _ .vmem, ⟨0, _⟩ => ⟨S1024x128, .f32⟩
  | .local _ .vmem, ⟨1, _⟩ => ⟨S1024x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S1x1, .f32⟩
  | .local _ .vmem, ⟨6, _⟩ => ⟨S1x1, .f32⟩
  | .local _ .vmem, ⟨7, _⟩ => ⟨S1024x1, .i32⟩
  | .local _ .vmem, ⟨8, _⟩ => ⟨S1024x1, .i32⟩
  | .local _ .vmem, ⟨9, _⟩ => ⟨S1x512, .i32⟩
  | .local _ .vmem, ⟨10, _⟩ => ⟨S1x512, .i32⟩
  | .local _ .vmem, ⟨11, _⟩ => ⟨S1024x512, .f32⟩
  | .local _ .vmem, ⟨12, _⟩ => ⟨S1024x512, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_cst_2 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S128_S1x128 : S128.ShapeCasts S1x128
  shapeCasts_S1_S_ : S1.ShapeCasts S_
  shapeCasts_S_S1x1 : S_.ShapeCasts S1x1
  shapeCasts_S8192_S8192x1 : S8192.ShapeCasts S8192x1
  shapeCasts_S8192_S1x8192 : S8192.ShapeCasts S1x8192
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1024x128_S1024x128_0_0 : ∀ a, (![0, 0] : Fin 2 → Nat) a + S1024x128.size a ≤ S1024x128.size a
  h_S1024x128 : 0 < S1024x128.numel
  broadcasts_S1x128_S1024x128 : S1x128.Broadcasts S1024x128
  inb_S512x128_S512x128_0_0 : ∀ a, (![0, 0] : Fin 2 → Nat) a + S512x128.size a ≤ S512x128.size a
  h_S512x128 : 0 < S512x128.numel
  broadcasts_S1x128_S512x128 : S1x128.Broadcasts S512x128
  reduces_S1024x128_S1024 : S1024x128.Reduces [1] S1024
  shapeCasts_S1024_S1024x1 : S1024.ShapeCasts S1024x1
  reduces_S512x128_S512 : S512x128.Reduces [1] S512
  shapeCasts_S512_S512x1 : S512.ShapeCasts S512x1
  transposes_S512x1_p1_0_S1x512 : S512x1.Transposes [1, 0] S1x512
  bitsLt_bf16_f32 : FTy.bits .bf16 < FTy.bits .f32
  transposes_S512x128_p1_0_S128x512 : S512x128.Transposes [1, 0] S128x512
  broadcasts_S1024x1_S1024x512 : S1024x1.Broadcasts S1024x512
  broadcasts_S1x512_S1024x512 : S1x512.Broadcasts S1024x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x512 : S1x1.Broadcasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x512_S1024x512_0_0 : ∀ a, (![0, 0] : Fin 2 → Nat) a + S1024x512.size a ≤ S1024x512.size a
  h_S1024x512 : 0 < S1024x512.numel
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .i32 = 32 ∨ (Rect.block (s := S8192x1) S1024x1.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x8192.size a
  hwx0_6 : ∀ i : grid0.Coords, EltTy.bits .i32 = 32 ∨ (Rect.block (s := S1x8192) S1x512.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S8192x8192.size a
  hwx0_7 : ∀ i : grid0.Coords, EltTy.bits .f32 = 32 ∨ (Rect.block (s := S8192x8192) S1024x512.size (cc0_transform_7 i) (hinb0_7 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1024x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x128 : Shape := ⟨2, ![8192, 128]⟩
abbrev S128 : Shape := ⟨1, ![128]⟩
abbrev S1 : Shape := ⟨1, ![1]⟩
abbrev S8192 : Shape := ⟨1, ![8192]⟩
abbrev S1x128 : Shape := ⟨2, ![1, 128]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 67
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S128, .f32⟩
  | .hbm, ⟨3, _⟩ => ⟨S1, .f32⟩
  | .hbm, ⟨4, _⟩ => ⟨S1, .f32⟩
  | .hbm, ⟨5, _⟩ => ⟨S8192, .i32⟩
  | .hbm, ⟨6, _⟩ => ⟨S8192, .i32⟩
  | .hbm, ⟨7, _⟩ => ⟨S128, .f32⟩
  | .hbm, ⟨8, _⟩ => ⟨S1x128, .f32⟩
  | .hbm, ⟨9, _⟩ => ⟨S8192x128, .f32⟩
  | .hbm, ⟨10, _⟩ => ⟨S8192x128, .f32⟩
  | .hbm, ⟨11, _⟩ => ⟨S1x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x128, .f32⟩
  | .hbm, ⟨19, _⟩ => ⟨S_, .f32⟩
  | .hbm, ⟨20, _⟩ => ⟨S8192, .f32⟩
  | .hbm, ⟨21, _⟩ => ⟨S1x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S128x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S8192x1, .i32⟩
  | .hbm, ⟨57, _⟩ => ⟨S1x8192, .i32⟩
  | .hbm, ⟨58, _⟩ => ⟨S8192x8192, .i32⟩
  | .hbm, ⟨59, _⟩ => ⟨S8192x8192, .i32⟩
  | .hbm, ⟨60, _⟩ => ⟨S8192x8192, .i1⟩
  | .hbm, ⟨61, _⟩ => ⟨S_, .f32⟩
  | .hbm, ⟨62, _⟩ => ⟨S_, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_cst_7 : Ref sig .tc := ⟨.hbm, 50, rfl⟩
abbrev main_cst_8 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  shapeCasts_S1_S_ : S1.ShapeCasts S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Spec.lean ====
/-
  The function both programs compute, stated once, entry by entry, on the extended reals.

  Two tables of points `x`, `y` in 128 coordinates, a vector `ℓ` of log length scales, a log amplitude, a
  task-correlation parameter and two vectors of task labels give the masked squared-exponential matrix

      K (r, c) = exp θ · exp (-½ · max (‖a_r‖² + ‖b_c‖² - 2 ⟨a_r, b_c⟩, 0)) · (if task₁ r ≠ task₂ c then λ else 1)

  where `a_r = x_r / exp ℓ` and `b_c = y_c / exp ℓ` coordinate by coordinate, the squared norms and the inner product are
  sums over the 128 coordinates, and `λ = min (1, max (0, 2 / (1 + exp b) - 1))`. The four float constants are kept as
  the words both programs spell (2, 0, -½, 1): the same word on both sides is never evaluated.
-/
import Idealize.ShloMosaic.PureOps.Ideal
import Idealize.ShloMosaic.Lib.ValueIdx

noncomputable section

namespace Cert.Tgp

open Idealize.ShloMosaic Idealize.ShloMosaic.ValueIdx

/-- Coordinate `d` of point `r`, divided by its length scale `exp (ℓ d)`. -/
def scaled (x : (⟨2, ![8192, 128]⟩ : Shape).Idx → EReal) (ℓ : (⟨1, ![128]⟩ : Shape).Idx → EReal) (r : Fin 8192) (d : Fin 128) : EReal :=
  Ideal.div (x (ix2 r d)) (Ideal.exp (ℓ (ix1 d)))

/-- The squared norm of the scaled point `r`. -/
def sqNorm (x : (⟨2, ![8192, 128]⟩ : Shape).Idx → EReal) (ℓ : (⟨1, ![128]⟩ : Shape).Idx → EReal) (r : Fin 8192) : EReal :=
  ∑ d : Fin 128, scaled x ℓ r d * scaled x ℓ r d

/-- The inner product of the scaled points `r` of `x` and `c` of `y`. -/
def inner (x y : (⟨2, ![8192, 128]⟩ : Shape).Idx → EReal) (ℓ : (⟨1, ![128]⟩ : Shape).Idx → EReal) (r c : Fin 8192) : EReal :=
  ∑ d : Fin 128, scaled x ℓ r d * scaled y ℓ c d

/-- The squared distance in its expanded form `‖a‖² + ‖b‖² - 2⟨a, b⟩`, cut off below at zero. -/
def sqDist (x y : (⟨2, ![8192, 128]⟩ : Shape).Idx → EReal) (ℓ : (⟨1, ![128]⟩ : Shape).Idx → EReal) (r c : Fin 8192) : EReal :=
  max ((sqNorm x ℓ r + sqNorm y ℓ c) - Ideal.ofBits .f32 0x40000000#32 * inner x y ℓ r c) (Ideal.ofBits .f32 0x00000000#32)

/-- The amplitude `exp θ`. -/
def amplitude (θ : (⟨1, ![1]⟩ : Shape).Idx → EReal) : EReal := Ideal.exp (θ (ix1 0))

/-- The cross-task factor `λ = min (1, max (0, 2 / (1 + exp b) - 1))`. -/
def crossTask (b : (⟨1, ![1]⟩ : Shape).Idx → EReal) : EReal :=
  min (Ideal.ofBits .f32 0x3F800000#32)
    (max (Ideal.ofBits .f32 0x00000000#32)
      (Ideal.div (Ideal.ofBits .f32 0x40000000#32) (Ideal.ofBits .f32 0x3F800000#32 + Ideal.exp (b (ix1 0)))
        - Ideal.ofBits .f32 0x3F800000#32))

/-- The unmasked entry: amplitude times the exponential of minus half the squared distance. -/
def base (x y : (⟨2, ![8192, 128]⟩ : Shape).Idx → EReal) (ℓ : (⟨1, ![128]⟩ : Shape).Idx → EReal)
    (θ : (⟨1, ![1]⟩ : Shape).Idx → EReal) (r c : Fin 8192) : EReal :=
  amplitude θ * Ideal.exp (Ideal.ofBits .f32 0xBF000000#32 * sqDist x y ℓ r c)

/-- The mask: `λ` where the two tasks differ, one where they agree. -/
def mask (b : (⟨1, ![1]⟩ : Shape).Idx → EReal) (t₁ t₂ : (⟨1, ![8192]⟩ : Shape).Idx → BitVec 32) (r c : Fin 8192) : EReal :=
  Scalar.select (IntOp.cmpi .ne (t₁ (ix1 r)) (t₂ (ix1 c))) (crossTask b) (Ideal.ofBits .f32 0x3F800000#32)

/-- Entry `(r, c)` of the matrix. -/
def entry (x y : (⟨2, ![8192, 128]⟩ : Shape).Idx → EReal) (ℓ : (⟨1, ![128]⟩ : Shape).Idx → EReal)
    (θ b : (⟨1, ![1]⟩ : Shape).Idx → EReal) (t₁ t₂ : (⟨1, ![8192]⟩ : Shape).Idx → BitVec 32) (r c : Fin 8192) : EReal :=
  base x y ℓ θ r c * mask b t₁ t₂ r c

/-- The whole matrix as one function of the seven arguments. -/
def K (x y : (⟨2, ![8192, 128]⟩ : Shape).Idx → EReal) (ℓ : (⟨1, ![128]⟩ : Shape).Idx → EReal)
    (θ b : (⟨1, ![1]⟩ : Shape).Idx → EReal) (t₁ t₂ : (⟨1, ![8192]⟩ : Shape).Idx → BitVec 32) :
    (⟨2, ![8192, 8192]⟩ : Shape).Idx → EReal :=
  fun i => entry x y ℓ θ b t₁ t₂ (i 0) (i 1)

theorem K_ix2 (x y : (⟨2, ![8192, 128]⟩ : Shape).Idx → EReal) (ℓ : (⟨1, ![128]⟩ : Shape).Idx → EReal)
    (θ b : (⟨1, ![1]⟩ : Shape).Idx → EReal) (t₁ t₂ : (⟨1, ![8192]⟩ : Shape).Idx → BitVec 32) (r c : Fin 8192) :
    K x y ℓ θ b t₁ t₂ (ix2 r c) = entry x y ℓ θ b t₁ t₂ r c := rfl

end Cert.Tgp

end
-- ==== Proof.RefIsSpec.lean ====
/-
  The reference computes `K`.

  Its host program is read one operation at a time (the generated stage lemmas), from the inside out: the scaled
  coordinates `x / exp ℓ`; their squared norms (the host's sum with initial value zero) and the inner products (the
  host's contraction over the 128 coordinates, its right operand a transpose, so row `c` of the second table); the
  expanded squared distance cut off at zero; the amplitude and the cross-task factor, scalars read from one-element
  arrays; the mask by comparing the task labels of row and column. At every stage the index the reference reads is
  the one `K` names, and no arithmetic law is used: the two sides are the same expression.
-/
import proofs.«113448_j21036749815950_1_alg».proof.Proof.Gen.ReferenceIdeal.Read
import proofs.«113448_j21036749815950_1_alg».proof.Proof.Spec
import Idealize.ShloMosaic.PureOps.Ideal.Laws

noncomputable section

namespace Cert.Tgp.Ref

open Idealize.ShloMosaic Idealize.ShloMosaic.ValueIdx Cert.ReferenceIdeal Cert.ReferenceIdeal.Read

variable (x0 x1 : (⟨S8192x128, .f32⟩ : BufTy).Contents (Elt Ideal)) (x2 : (⟨S128, .f32⟩ : BufTy).Contents (Elt Ideal))
  (x3 x4 : (⟨S1, .f32⟩ : BufTy).Contents (Elt Ideal)) (x5 x6 : (⟨S8192, .i32⟩ : BufTy).Contents (Elt Ideal))

/-! ## Where each stage reads -/

/-- The length scale read for coordinate `d` of any row is entry `d` of `ℓ` (first table's chain). -/
theorem scaleIdxA (r : Fin 8192) (d : Fin 128) : idx_main_v1 (idx_main_v2 (ix2 r d)) = ix1 d :=
  funext fun a => by match a with | ⟨0, _⟩ => rfl

/-- The same for the second table's chain. -/
theorem scaleIdxB (r : Fin 8192) (d : Fin 128) : idx_main_v4 (idx_main_v5 (ix2 r d)) = ix1 d :=
  funext fun a => by match a with | ⟨0, _⟩ => rfl

/-- Term `k` of row `r`'s sum is at `(r, k)`. -/
theorem sumIdxA (r : Fin 8192) (k : Fin 128) : idx_main_v8 (ix1 r) k = ix2 r k :=
  funext fun a => by match a with | ⟨0, _⟩ => rfl | ⟨1, _⟩ => rfl

theorem sumIdxB (r : Fin 8192) (k : Fin 128) : idx_main_v11 (ix1 r) k = ix2 r k :=
  funext fun a => by match a with | ⟨0, _⟩ => rfl | ⟨1, _⟩ => rfl

/-- The row norm broadcast along columns is read at the row. -/
theorem rowIdx (r c : Fin 8192) : idx_main_v9 (idx_main_v13 (ix2 r c)) = ix1 r :=
  funext fun a => by match a with | ⟨0, _⟩ => rfl

/-- The column norm broadcast along rows is read at the column. -/
theorem colIdx (r c : Fin 8192) : idx_main_v12 (idx_main_v14 (ix2 r c)) = ix1 c :=
  funext fun a => by match a with | ⟨0, _⟩ => rfl

/-- The contraction's left factor `k` at `(r, c)` is at `(r, k)`. -/
theorem dotIdxL (r c : Fin 8192) (k : Fin 128) : lidx_main_v17 (ix2 r c) k = ix2 r k :=
  funext fun a => by match a with | ⟨0, _⟩ => rfl | ⟨1, _⟩ => rfl

/-- Its right factor, through the transpose, is at `(c, k)` of the second table. -/
theorem dotIdxR (r c : Fin 8192) (k : Fin 128) : idx_main_v16 (ridx_main_v17 (ix2 r c) k) = ix2 c k :=
  funext fun a => by match a with | ⟨0, _⟩ => rfl | ⟨1, _⟩ => rfl

theorem taskIdxR (r c : Fin 8192) : idx_main_v36 (idx_main_v38 (ix2 r c)) = ix1 r :=
  funext fun a => by match a with | ⟨0, _⟩ => rfl

theorem taskIdxC (r c : Fin 8192) : idx_main_v37 (idx_main_v39 (ix2 r c)) = ix1 c :=
  funext fun a => by match a with | ⟨0, _⟩ => rfl

/-- A one-element array recast as a scalar holds its one entry. -/
theorem scalar_of_one (x : S1.Idx → EReal) (h : S1.ShapeCasts S_) (j : S_.Idx) : shapeCast S_ x h j = x (ix1 0) := by
  unfold shapeCast
  exact congrArg x (funext fun d => match d with | ⟨0, _⟩ => Fin.ext (Nat.lt_one_iff.mp (Fin.isLt _)))

/-! ## The stages -/

theorem scaledA (r : Fin 8192) (d : Fin 128) : val_main_v3 (F := Ideal) x0 x2 (ix2 r d) = scaled x0 x2 r d := by
  rw [val_main_v3_apply, val_main_v2_apply, val_main_v1_apply, val_main_v0_apply, scaleIdxA] <;> rfl

theorem scaledB (r : Fin 8192) (d : Fin 128) : val_main_v6 (F := Ideal) x1 x2 (ix2 r d) = scaled x1 x2 r d := by
  rw [val_main_v6_apply, val_main_v5_apply, val_main_v4_apply, val_main_v0_apply, scaleIdxB] <;> rfl

theorem normA (r : Fin 8192) : val_main_v8 (F := Ideal) x0 x2 (ix1 r) = sqNorm x0 x2 r := by
  rw [val_main_v8_apply, val_main_cst_apply]
  show Ideal.ofBits .f32 0x00000000#32 + _ = _
  rw [Ideal.ofBits_zero_f32, zero_add]
  exact Finset.sum_congr rfl fun k _ => by rw [sumIdxA, val_main_v7_apply, scaledA] <;> rfl

theorem normB (c : Fin 8192) : val_main_v11 (F := Ideal) x1 x2 (ix1 c) = sqNorm x1 x2 c := by
  rw [val_main_v11_apply, val_main_cst_0_apply]
  show Ideal.ofBits .f32 0x00000000#32 + _ = _
  rw [Ideal.ofBits_zero_f32, zero_add]
  exact Finset.sum_congr rfl fun k _ => by rw [sumIdxB, val_main_v10_apply, scaledB] <;> rfl

theorem dotAB (r c : Fin 8192) : val_main_v17 (F := Ideal) x0 x1 x2 (ix2 r c) = inner x0 x1 x2 r c := by
  rw [val_main_v17_apply]
  exact Finset.sum_congr rfl fun k _ => by rw [dotIdxL, val_main_v16_apply, dotIdxR, scaledA, scaledB]

theorem distRC (r c : Fin 8192) : val_main_v22 (F := Ideal) x0 x1 x2 (ix2 r c) = sqDist x0 x1 x2 r c := by
  rw [val_main_v22_apply, val_main_v20_apply, val_main_v15_apply, val_main_v13_apply, val_main_v9_apply, rowIdx, normA,
    val_main_v14_apply, val_main_v12_apply, colIdx, normB, val_main_v19_apply, val_main_v18_apply, val_main_cst_1_apply, dotAB,
    val_main_v21_apply, val_main_cst_2_apply] <;> rfl

theorem baseRC (r c : Fin 8192) : val_main_v29 (F := Ideal) x0 x1 x2 x3 (ix2 r c) = base x0 x1 x2 x3 r c := by
  rw [val_main_v29_apply, val_main_v28_apply, val_main_v24_apply, val_main_v27_apply, val_main_v26_apply, val_main_v25_apply,
    val_main_cst_3_apply, distRC]
  unfold val_main_v23
  rw [scalar_of_one] <;> rfl

theorem crossTask_eq (j : S_.Idx) : val_main_v35 (F := Ideal) x4 j = crossTask x4 := by
  rw [val_main_v35_apply, val_main_call0_v2_apply, val_main_cst_8_apply, val_main_call0_v1_apply, val_main_call0_v0_apply,
    val_main_cst_7_apply, val_main_v34_apply, val_main_v33_apply, val_main_cst_5_apply, val_main_v32_apply, val_main_cst_4_apply,
    val_main_v31_apply, val_main_cst_6_apply]
  unfold val_main_v30
  rw [scalar_of_one] <;> rfl

theorem maskRC (r c : Fin 8192) : val_main_v41 (F := Ideal) x4 x5 x6 (ix2 r c) = mask x4 x5 x6 r c := by
  rw [val_main_v41_apply, val_main_v40_apply, val_main_v38_apply, val_main_v36_apply, taskIdxR, val_main_v39_apply,
    val_main_v37_apply, taskIdxC, val_main_call1_v1_apply, crossTask_eq, val_main_call1_v2_apply, val_main_call1_v0_apply,
    val_main_cst_9_apply] <;> rfl

/-- The reference's result, as the generated run states it, is `K` of the arguments. -/
theorem ref_is_K : val_main_v42 (F := Ideal) x0 x1 x2 x3 x4 x5 x6 = K x0 x1 x2 x3 x4 x5 x6 := by
  funext i
  obtain ⟨r, c, rfl⟩ : ∃ (r c : Fin 8192), i = ix2 r c := ⟨i 0, i 1, eq_ix2 i⟩
  rw [val_main_v42_apply, baseRC, maskRC] <;> rfl

end Cert.Tgp.Ref

end
-- ==== Proof.LibColumn.lean ====
/-
  Layout operations on a column, read at an index: the forms a sum taken with its axis kept meets.
  A vector of `a` entries cast to a column `[a, 1]`; a column broadcast along a new second axis to `[a, b]`; a single
  entry `[1, 1]` broadcast to every place of `[a, b]`; and a one-element array recast as a scalar and back.
  Each operation only relabels: the entry read is named by its coordinates.
-/
import Idealize.ShloMosaic.Lib.Pipeline.Value
import Idealize.ShloMosaic.Lib.ValueIdx

namespace Cert.LibColumn

open Idealize.ShloMosaic Idealize.ShloMosaic.ValueIdx

variable {α : Type}

/-- A vector cast to a column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single entry broadcast to `[a, b]` reads that entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A one-element array recast as a scalar holds its one entry. -/
theorem shapeCast_1_scalar_apply (x : (⟨1, ![1]⟩ : Shape).Idx → α) (h : (⟨1, ![1]⟩ : Shape).ShapeCasts ⟨0, ![]⟩)
    (j : (⟨0, ![]⟩ : Shape).Idx) : shapeCast ⟨0, ![]⟩ x h j = x (ix1 0) := by
  unfold shapeCast
  exact congrArg x (funext fun d => match d with | ⟨0, _⟩ => Fin.ext (Nat.lt_one_iff.mp (Fin.isLt _)))

/-- A scalar recast as a `[1, 1]` array holds the scalar at its one place. -/
theorem shapeCast_scalar_11_apply (x : (⟨0, ![]⟩ : Shape).Idx → α) (h : (⟨0, ![]⟩ : Shape).ShapeCasts ⟨2, ![1, 1]⟩)
    (j : (⟨2, ![1, 1]⟩ : Shape).Idx) : shapeCast ⟨2, ![1, 1]⟩ x h j = x ix0 := by
  unfold shapeCast
  exact congrArg x (funext fun d => d.elim0)

end Cert.LibColumn
-- ==== Proof.Body.lean ====
/-
  What the kernel's body computes from its blocks, entry by entry.

  At a grid point the body holds a block of 1024 rows of the first table, a block of 512 rows of the second, the row
  of log length scales and the amplitude. It divides both blocks by `exp ℓ`, takes the squared norms of their rows
  (a sum over the 128 coordinates, kept as a column for the first block and turned into a row for the second), the
  products of every row of the first with every row of the second (one matrix product, its accumulator zero; the
  change to a narrower float format before it is the identity on the extended reals), and forms
  `amplitude · exp (-½ · max (‖a_p‖² + ‖b_q‖² - 2 ⟨a_p, b_q⟩, 0))` at entry `(p, q)`.

  The operations that only relabel (broadcasts, casts, transposes) are read at an index by naming the entry they read;
  the two sums are plain sums over the coordinate.
-/
import proofs.«113448_j21036749815950_1_alg».proof.Proof.Gen.KernelIdeal.Skeleton
import proofs.«113448_j21036749815950_1_alg».proof.Proof.Spec
import proofs.«113448_j21036749815950_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.Tgp.Body

open Idealize.ShloMosaic Idealize.ShloMosaic.ValueIdx Cert.KernelIdeal Cert.KernelIdeal.Gen Cert.LibColumn

/-! ## The pieces of the body, named -/

/-- A block of `n` points with each coordinate divided by its length scale. -/
def scaledBlk {n : Nat} (hb : S1x128.Broadcasts ⟨2, ![n, 128]⟩) (L : FVec Ideal S1x128 .f32) (X : FVec Ideal ⟨2, ![n, 128]⟩ .f32) :
    FVec Ideal ⟨2, ![n, 128]⟩ .f32 :=
  divf X (broadcastTo ⟨2, ![n, 128]⟩ (exp (shapeCast S1x128 L shapeCasts_S1x128_S1x128)) hb)

/-- The squared norms of a block's rows. -/
def rowNorms {n : Nat} (hr : (⟨2, ![n, 128]⟩ : Shape).Reduces [1] ⟨1, ![n]⟩) (A : FVec Ideal ⟨2, ![n, 128]⟩ .f32) :
    FVec Ideal ⟨1, ![n]⟩ .f32 :=
  multiReduction .add [1] ⟨1, ![n]⟩ (mulf A A) 0x00000000#32 hr (.inl rfl) rfl

/-- The first block's squared norms, one per row, laid along the columns. -/
def normCol (A : FVec Ideal S1024x128 .f32) : FVec Ideal S1024x512 .f32 :=
  broadcastTo S1024x512 (shapeCast S1024x1 (rowNorms reduces_S1024x128_S1024 A) shapeCasts_S1024_S1024x1) broadcasts_S1024x1_S1024x512

/-- The second block's squared norms, one per column, laid along the rows. -/
def normRow (B : FVec Ideal S512x128 .f32) : FVec Ideal S1024x512 .f32 :=
  broadcastTo S1024x512 (transpose S1x512 [1, 0] (shapeCast S512x1 (rowNorms reduces_S512x128_S512 B) shapeCasts_S512_S512x1)
    transposes_S512x1_p1_0_S1x512) broadcasts_S1x512_S1024x512

/-- The inner products of every row of the first block with every row of the second. -/
def gram (A : FVec Ideal S1024x128 .f32) (B : FVec Ideal S512x128 .f32) : FVec Ideal S1024x512 .f32 :=
  matmul dot_S1024x128_S128x512_S1024x512_1_0_0_1_n_n none (truncf .bf16 A bitsLt_bf16_f32)
    (transpose S128x512 [1, 0] (truncf .bf16 B bitsLt_bf16_f32) transposes_S512x128_p1_0_S128x512)
    (constant S1024x512 .f32 0x00000000#32)

/-- The body's unmasked value is this tree of the named pieces. -/
theorem pay2_tree (P0 : Vec Ideal S1x128 .f32) (P1 : Vec Ideal S1024x128 .f32) (P2 : Vec Ideal S512x128 .f32) (P3 : Vec Ideal S1x1 .f32) :
    k0_pay2 P0 P1 P2 P3 =
      mulf (broadcastTo S1024x512 (shapeCast S1x1 P3 shapeCasts_S1x1_S1x1) broadcasts_S1x1_S1024x512)
        (exp (mulf (broadcast S1024x512 (Scalar.ofBits .f32 0xBF000000#32))
          (maximumf
            (subf
              (addf (normCol (scaledBlk broadcasts_S1x128_S1024x128 P0 P1)) (normRow (scaledBlk broadcasts_S1x128_S512x128 P0 P2)))
              (mulf (broadcast S1024x512 (Scalar.ofBits .f32 0x40000000#32))
                (gram (scaledBlk broadcasts_S1x128_S1024x128 P0 P1) (scaledBlk broadcasts_S1x128_S512x128 P0 P2))))
            (broadcast S1024x512 (Scalar.ofBits .f32 0x00000000#32))))) := rfl

/-! ## Each piece at an index -/

theorem scaledBlk_apply {n : Nat} (hb : S1x128.Broadcasts ⟨2, ![n, 128]⟩) (L : FVec Ideal S1x128 .f32) (X : FVec Ideal ⟨2, ![n, 128]⟩ .f32)
    (p : Fin n) (d : Fin 128) :
    scaledBlk hb L X (ix2 p d) = Ideal.div (X (ix2 p d)) (Ideal.exp (L (ix2 (0 : Fin 1) d))) := by
  unfold scaledBlk
  rw [divf_apply, broadcastTo_1b_ab_apply, shapeCast_self]
  rfl

theorem rowNorms_apply {n : Nat} (hr : (⟨2, ![n, 128]⟩ : Shape).Reduces [1] ⟨1, ![n]⟩) (A : FVec Ideal ⟨2, ![n, 128]⟩ .f32) (p : Fin n) :
    rowNorms hr A (ix1 p) = ∑ d : Fin 128, A (ix2 p d) * A (ix2 p d) := by
  unfold rowNorms
  refine (Ideal.multiReduction_add_single (mulf A A) 0x00000000#32 hr (.inl rfl) rfl (ix1 p)).trans ?_
  exact Finset.sum_congr rfl fun k _ =>
    congrArg (mulf A A) (funext fun a => Fin.ext (by match a with | ⟨0, _⟩ => rfl | ⟨1, _⟩ => rfl))

theorem normCol_apply (A : FVec Ideal S1024x128 .f32) (p : Fin 1024) (q : Fin 512) :
    normCol A (ix2 p q) = ∑ d : Fin 128, A (ix2 p d) * A (ix2 p d) := by
  unfold normCol
  rw [broadcastTo_a1_ab_apply, shapeCast_a_a1_apply, rowNorms_apply]

theorem normRow_apply (B : FVec Ideal S512x128 .f32) (p : Fin 1024) (q : Fin 512) :
    normRow B (ix2 p q) = ∑ d : Fin 128, B (ix2 q d) * B (ix2 q d) := by
  unfold normRow
  rw [broadcastTo_1b_ab_apply, transpose_ix2_apply, shapeCast_a_a1_apply, rowNorms_apply]

/-! The contraction: its left operand is read at `(row, k)`, its right operand, a transpose, at `(k, column)`. -/

theorem lhs_gram_0 (i : S1024x512.Idx) (q : dot_S1024x128_S128x512_S1024x512_1_0_0_1_n_n.contr.Idx) :
    (dot_S1024x128_S128x512_S1024x512_1_0_0_1_n_n.lhsIdx i q 0).val = (i 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
theorem lhs_gram_1 (i : S1024x512.Idx) (q : dot_S1024x128_S128x512_S1024x512_1_0_0_1_n_n.contr.Idx) :
    (dot_S1024x128_S128x512_S1024x512_1_0_0_1_n_n.lhsIdx i q 1).val = (q ⟨0, by decide⟩).val :=
  dot_S1024x128_S128x512_S1024x512_1_0_0_1_n_n.lhsIdx_val_of_single rfl i q
theorem rhs_gram_0 (i : S1024x512.Idx) (q : dot_S1024x128_S128x512_S1024x512_1_0_0_1_n_n.contr.Idx) :
    (dot_S1024x128_S128x512_S1024x512_1_0_0_1_n_n.rhsIdx i q 0).val = (q ⟨0, by decide⟩).val :=
  dot_S1024x128_S128x512_S1024x512_1_0_0_1_n_n.rhsIdx_val_of_single rfl i q
theorem rhs_gram_1 (i : S1024x512.Idx) (q : dot_S1024x128_S128x512_S1024x512_1_0_0_1_n_n.contr.Idx) :
    (dot_S1024x128_S128x512_S1024x512_1_0_0_1_n_n.rhsIdx i q 1).val = (i 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl

theorem gram_apply (A : FVec Ideal S1024x128 .f32) (B : FVec Ideal S512x128 .f32) (p : Fin 1024) (q : Fin 512) :
    gram A B (ix2 p q) = ∑ d : Fin 128, A (ix2 p d) * B (ix2 q d) := by
  unfold gram
  simp only [matmul]
  rw [Ideal.matmul_constant_zero_apply, ← Equiv.sum_comp (ValueIdx.contrEquiv1 dot_S1024x128_S128x512_S1024x512_1_0_0_1_n_n 128 rfl rfl).symm]
  refine Finset.sum_congr rfl fun k _ => ?_
  have hk := ValueIdx.contrEquiv1_symm_val dot_S1024x128_S128x512_S1024x512_1_0_0_1_n_n 128 rfl rfl k
  have el : dot_S1024x128_S128x512_S1024x512_1_0_0_1_n_n.lhsIdx (ix2 p q) ((ValueIdx.contrEquiv1 dot_S1024x128_S128x512_S1024x512_1_0_0_1_n_n 128 rfl rfl).symm k) = ix2 p k := funext fun a => Fin.ext (by
    match a with
    | ⟨0, _⟩ => exact lhs_gram_0 _ _
    | ⟨1, _⟩ => exact (lhs_gram_1 _ _).trans hk)
  have er : dot_S1024x128_S128x512_S1024x512_1_0_0_1_n_n.rhsIdx (ix2 p q) ((ValueIdx.contrEquiv1 dot_S1024x128_S128x512_S1024x512_1_0_0_1_n_n 128 rfl rfl).symm k) = ix2 k q := funext fun a => Fin.ext (by
    match a with
    | ⟨0, _⟩ => exact (rhs_gram_0 _ _).trans hk
    | ⟨1, _⟩ => exact rhs_gram_1 _ _)
  rw [el, er, truncf_apply, transpose_ix2_apply, truncf_apply]

/-! ## The body's value at an entry -/

/-- Entry `(p, q)` of the unmasked value, over the blocks' own entries. -/
theorem pay2_apply (P0 : Vec Ideal S1x128 .f32) (P1 : Vec Ideal S1024x128 .f32) (P2 : Vec Ideal S512x128 .f32) (P3 : Vec Ideal S1x1 .f32)
    (p : Fin 1024) (q : Fin 512) :
    k0_pay2 P0 P1 P2 P3 (ix2 p q) =
      P3 (ix2 (0 : Fin 1) (0 : Fin 1)) * Ideal.exp (Ideal.ofBits .f32 0xBF000000#32 *
        max ((normCol (scaledBlk broadcasts_S1x128_S1024x128 P0 P1) (ix2 p q) + normRow (scaledBlk broadcasts_S1x128_S512x128 P0 P2) (ix2 p q))
            - Ideal.ofBits .f32 0x40000000#32 * gram (scaledBlk broadcasts_S1x128_S1024x128 P0 P1) (scaledBlk broadcasts_S1x128_S512x128 P0 P2) (ix2 p q))
          (Ideal.ofBits .f32 0x00000000#32)) := by
  rw [pay2_tree, mulf_apply, broadcastTo_11_ab_apply, shapeCast_self]
  rfl

/-- The same entry, when the blocks hold rows `R` of `x` and `C` of `y`, the scales `ℓ` and the amplitude: the
    unmasked entry `(R, C)` of the matrix. -/
theorem pay2_entry (P0 : Vec Ideal S1x128 .f32) (P1 : Vec Ideal S1024x128 .f32) (P2 : Vec Ideal S512x128 .f32) (P3 : Vec Ideal S1x1 .f32)
    (x y : (⟨2, ![8192, 128]⟩ : Shape).Idx → EReal) (ℓ : (⟨1, ![128]⟩ : Shape).Idx → EReal) (θ : (⟨1, ![1]⟩ : Shape).Idx → EReal)
    (R C : Fin 8192) (p : Fin 1024) (q : Fin 512)
    (h0 : ∀ d : Fin 128, P0 (ix2 (0 : Fin 1) d) = ℓ (ix1 d))
    (h1 : ∀ d : Fin 128, P1 (ix2 p d) = x (ix2 R d))
    (h2 : ∀ d : Fin 128, P2 (ix2 q d) = y (ix2 C d))
    (h3 : P3 (ix2 (0 : Fin 1) (0 : Fin 1)) = amplitude θ) :
    k0_pay2 P0 P1 P2 P3 (ix2 p q) = base x y ℓ θ R C := by
  rw [pay2_apply, normCol_apply, normRow_apply, gram_apply, h3]
  simp only [scaledBlk_apply, h0, h1, h2]
  rfl

end Cert.Tgp.Body

end
-- ==== Proof.Host.lean ====
/-
  What the kernel's region finds in the five arrays its host program prepares.

  Before the call the host only relabels and computes two scalars: the log length scales as one row `[1, 128]`; the
  amplitude `exp θ` as a `[1, 1]` array; the cross-task factor `min (1, max (0, 2 / (1 + exp b) - 1))` as a `[1, 1]`
  array; the first task labels as a column `[8192, 1]`, the second as a row `[1, 8192]`. Each array is read at an
  index as the entry of the argument it relabels, the two scalars as the specification's `amplitude` and `crossTask`.
-/
import proofs.«113448_j21036749815950_1_alg».proof.Proof.Gen.KernelIdeal.Frame
import proofs.«113448_j21036749815950_1_alg».proof.Proof.Spec
import proofs.«113448_j21036749815950_1_alg».proof.Proof.LibColumn
import Idealize.ShloMosaic.Lib.StableHlo.Run
import Idealize.ShloMosaic.Lib.ValueLayout
import Idealize.ShloMosaic.PureOps.Ideal

noncomputable section

namespace Cert.Tgp.Host

open Idealize.ShloMosaic Idealize.ShloMosaic.TcCoe Idealize.ShloMosaic.ValueIdx Idealize.SL.Sem Idealize.ShloMosaic.StableHlo
open Cert.KernelIdeal Cert.KernelIdeal.Gen Cert.LibColumn

variable (m : (ℓ : Loc nD τ sig) → Buf (Elt Ideal) ℓ)

/-! ## The arrays, whole -/

theorem V_scales (c : Dev nD) : (V m c main_v0 : S1x128.Idx → EReal)
    = shapeCast S1x128 (m ((c.tc : Thread nD τ).loc main_arg2) : S128.Idx → EReal) shapeCasts_S128_S1x128 := by
  dsimp only [Gen.V]
  simp only [Gen.hostOps0, Gen.hostOps0_1, Gen.hostOps0_2, List.flatten_cons, List.flatten_nil, List.append_nil, List.cons_append, List.nil_append]
  after_results
  rfl

theorem V_amp (c : Dev nD) : (V m c main_v3 : S1x1.Idx → EReal)
    = shapeCast S1x1 (Host.exp (F := Ideal) (φ := .f32) (shapeCast S_ (m ((c.tc : Thread nD τ).loc main_arg3) : S1.Idx → EReal) shapeCasts_S1_S_)) shapeCasts_S_S1x1 := by
  dsimp only [Gen.V]
  simp only [Gen.hostOps0, Gen.hostOps0_1, Gen.hostOps0_2, List.flatten_cons, List.flatten_nil, List.append_nil, List.cons_append, List.nil_append]
  after_results
  rfl

theorem V_cross (c : Dev nD) : (V m c main_v10 : S1x1.Idx → EReal)
    = shapeCast S1x1
        (minimumf (id (constant (F := Ideal) S_ .f32 0x3F800000#32))
          (maximumf (id (constant (F := Ideal) S_ .f32 0x00000000#32))
            (subf
              (Host.divf (F := Ideal) (constant (F := Ideal) S_ .f32 0x40000000#32)
                (addf (constant (F := Ideal) S_ .f32 0x3F800000#32)
                  (Host.exp (F := Ideal) (shapeCast S_ (m ((c.tc : Thread nD τ).loc main_arg4) : S1.Idx → EReal) shapeCasts_S1_S_))))
              (constant (F := Ideal) S_ .f32 0x3F800000#32))))
        shapeCasts_S_S1x1 := by
  dsimp only [Gen.V]
  simp only [Gen.hostOps0, Gen.hostOps0_1, Gen.hostOps0_2, List.flatten_cons, List.flatten_nil, List.append_nil, List.cons_append, List.nil_append]
  after_results
  rfl

theorem V_task1 (c : Dev nD) : (V m c main_v11 : S8192x1.Idx → BitVec 32)
    = shapeCast S8192x1 (m ((c.tc : Thread nD τ).loc main_arg5) : S8192.Idx → BitVec 32) shapeCasts_S8192_S8192x1 := by
  dsimp only [Gen.V]
  simp only [Gen.hostOps0, Gen.hostOps0_1, Gen.hostOps0_2, List.flatten_cons, List.flatten_nil, List.append_nil, List.cons_append, List.nil_append]
  after_results
  rfl

theorem V_task2 (c : Dev nD) : (V m c main_v12 : S1x8192.Idx → BitVec 32)
    = shapeCast S1x8192 (m ((c.tc : Thread nD τ).loc main_arg6) : S8192.Idx → BitVec 32) shapeCasts_S8192_S1x8192 := by
  dsimp only [Gen.V]
  simp only [Gen.hostOps0, Gen.hostOps0_1, Gen.hostOps0_2, List.flatten_cons, List.flatten_nil, List.append_nil, List.cons_append, List.nil_append]
  after_results
  rfl

/-! ## The arrays, at an index -/

/-- Entry `d` of the row of log length scales is entry `d` of `ℓ`. -/
theorem scales_at (c : Dev nD) (d : Fin 128) :
    (V m c main_v0 : S1x128.Idx → EReal) (ix2 (0 : Fin 1) d) = (m ((c.tc : Thread nD τ).loc main_arg2) : S128.Idx → EReal) (ix1 d) := by
  rw [V_scales]
  exact shapeCast_a_1a_apply _ _ _ _

/-- The `[1, 1]` amplitude array holds `exp θ`. -/
theorem amp_at (c : Dev nD) :
    (V m c main_v3 : S1x1.Idx → EReal) (ix2 (0 : Fin 1) (0 : Fin 1)) = amplitude (m ((c.tc : Thread nD τ).loc main_arg3) : S1.Idx → EReal) := by
  rw [V_amp, shapeCast_scalar_11_apply]
  show Ideal.exp (shapeCast S_ (m ((c.tc : Thread nD τ).loc main_arg3) : S1.Idx → EReal) shapeCasts_S1_S_ ix0) = _
  rw [shapeCast_1_scalar_apply]
  rfl

/-- The `[1, 1]` cross-task array holds `λ`. -/
theorem cross_at (c : Dev nD) :
    (V m c main_v10 : S1x1.Idx → EReal) (ix2 (0 : Fin 1) (0 : Fin 1)) = crossTask (m ((c.tc : Thread nD τ).loc main_arg4) : S1.Idx → EReal) := by
  rw [V_cross, shapeCast_scalar_11_apply]
  show min (Ideal.ofBits .f32 0x3F800000#32)
      (max (Ideal.ofBits .f32 0x00000000#32)
        (Ideal.div (Ideal.ofBits .f32 0x40000000#32)
            (Ideal.ofBits .f32 0x3F800000#32 + Ideal.exp (shapeCast S_ (m ((c.tc : Thread nD τ).loc main_arg4) : S1.Idx → EReal) shapeCasts_S1_S_ ix0))
          - Ideal.ofBits .f32 0x3F800000#32)) = _
  rw [shapeCast_1_scalar_apply]
  rfl

/-- Entry `r` of the column of first task labels is label `r`. -/
theorem task1_at (c : Dev nD) (r : Fin 8192) :
    (V m c main_v11 : S8192x1.Idx → BitVec 32) (ix2 r (0 : Fin 1)) = (m ((c.tc : Thread nD τ).loc main_arg5) : S8192.Idx → BitVec 32) (ix1 r) := by
  rw [V_task1]
  exact shapeCast_a_a1_apply _ _ _ _

/-- Entry `k` of the row of second task labels is label `k`. -/
theorem task2_at (c : Dev nD) (k : Fin 8192) :
    (V m c main_v12 : S1x8192.Idx → BitVec 32) (ix2 (0 : Fin 1) k) = (m ((c.tc : Thread nD τ).loc main_arg6) : S8192.Idx → BitVec 32) (ix1 k) := by
  rw [V_task2]
  exact shapeCast_a_1a_apply _ _ _ _

end Cert.Tgp.Host

end
-- ==== Proof.Blocks.lean ====
/-
  From what each grid point writes to the whole result array.

  The grid has 8 × 16 points. Point `(i, j)` holds rows `1024 i … 1024 i + 1023` of the first table and of the first task
  labels, rows `512 j … 512 j + 511` of the second table and of the second task labels, and the three small arrays
  whole; it writes the `1024 × 512` block `(i, j)` of the result. So entry `(p, q)` of what it writes is entry
  `(1024 i + p, 512 j + q)` of the matrix `K` of the arguments: the unmasked value by the body's arithmetic, the mask by
  the two labels. The 128 blocks tile the `8192 × 8192` array (entry `(r, c)` lies in block `(r / 1024, c / 512)`), hence
  the array the run leaves is `K`.
-/
import proofs.«113448_j21036749815950_1_alg».proof.Proof.KernelIdealValue
import proofs.«113448_j21036749815950_1_alg».proof.Proof.Body
import proofs.«113448_j21036749815950_1_alg».proof.Proof.Host
import Idealize.ShloMosaic.Lib.Pipeline.Value

noncomputable section

namespace Cert.Tgp.Blocks

open Idealize.ShloMosaic Idealize.ShloMosaic.TcCoe Idealize.ShloMosaic.ValueIdx Idealize.SL.Sem
open Cert.KernelIdeal Cert.KernelIdeal.Gen Cert.KernelIdeal.ValueP
open Idealize.ShloMosaic.Pipeline (Dat)

variable (m : (ℓ : Loc nD τ sig) → Buf (Elt Ideal) ℓ) (ρ : Dev nD → PrngReg)

/-- The matrix `K` of the seven arguments as launched on core `c`. -/
abbrev Kof (c : Dev nD) : S8192x8192.Idx → EReal :=
  K (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))

theorem hz : (![0, 0] : Fin 2 → Nat) = fun _ => 0 := funext fun a => by fin_cases a <;> rfl

/-! ## Entry `(p, q)` of the written block, over blocks as variables -/

theorem at_self (p : Fin 1024) (q : Fin 512) : ix7_0 (ix2 p q) = ix2 p q :=
  funext fun a => by match a with | ⟨0, _⟩ => rfl | ⟨1, _⟩ => rfl
theorem at_row (p : Fin 1024) (q : Fin 512) : ix7_1 (ix2 p q) = ix2 p (0 : Fin 1) :=
  funext fun a => by match a with | ⟨0, _⟩ => rfl | ⟨1, _⟩ => rfl
theorem at_col (p : Fin 1024) (q : Fin 512) : ix7_2 (ix2 p q) = ix2 (0 : Fin 1) q :=
  funext fun a => by match a with | ⟨0, _⟩ => rfl | ⟨1, _⟩ => rfl
theorem at_one (p : Fin 1024) (q : Fin 512) : ix7_3 (ix2 p q) = ix2 (0 : Fin 1) (0 : Fin 1) :=
  funext fun a => by match a with | ⟨0, _⟩ => rfl | ⟨1, _⟩ => rfl

/-- If the blocks hold rows `R` and `C` of the two tables and of the two label vectors, the scales, the amplitude and the
    cross-task factor, the body leaves the matrix's entry `(R, C)` at `(p, q)`. -/
theorem out_entry (x0 : Vec Ideal S1024x128 .f32) (x1 : Vec Ideal S512x128 .f32) (x2 : Vec Ideal S1x128 .f32) (x3 x4 : Vec Ideal S1x1 .f32)
    (x5 : Vec Ideal S1024x1 .i32) (x6 : Vec Ideal S1x512 .i32)
    (X Y : (⟨2, ![8192, 128]⟩ : Shape).Idx → EReal) (ℓ : (⟨1, ![128]⟩ : Shape).Idx → EReal) (θ b : (⟨1, ![1]⟩ : Shape).Idx → EReal)
    (t₁ t₂ : (⟨1, ![8192]⟩ : Shape).Idx → BitVec 32) (R C : Fin 8192) (p : Fin 1024) (q : Fin 512)
    (h2 : ∀ d : Fin 128, x2 (ix2 (0 : Fin 1) d) = ℓ (ix1 d))
    (h0 : ∀ d : Fin 128, x0 (ix2 p d) = X (ix2 R d))
    (h1 : ∀ d : Fin 128, x1 (ix2 q d) = Y (ix2 C d))
    (h3 : x3 (ix2 (0 : Fin 1) (0 : Fin 1)) = amplitude θ)
    (h4 : x4 (ix2 (0 : Fin 1) (0 : Fin 1)) = crossTask b)
    (h5 : x5 (ix2 p (0 : Fin 1)) = t₁ (ix1 R))
    (h6 : x6 (ix2 (0 : Fin 1) q) = t₂ (ix1 C)) :
    out0_7 x0 x1 x2 x3 x4 x5 x6 (ix2 p q) = entry X Y ℓ θ b t₁ t₂ R C := by
  unfold out0_7
  refine (canon7_eq _ _ _ _ _ _ _ (ix2 p q)).trans ?_
  simp only [View.ld_unit_zero (S := S1x128) hz, View.ld_unit_zero (S := S1024x128) hz, View.ld_unit_zero (S := S512x128) hz,
    View.ld_unit_zero (S := S1x1) hz, View.ld_unit_zero (S := S1024x1) hz, View.ld_unit_zero (S := S1x512) hz]
  show FloatOps.mulf (k0_pay2 x2 x0 x1 x3 (ix7_0 (ix2 p q)))
      (Scalar.select (IntOp.cmpi .ne (x5 (ix7_1 (ix2 p q))) (x6 (ix7_2 (ix2 p q)))) (x4 (ix7_3 (ix2 p q))) (Scalar.ofBits .f32 0x3F800000#32)) = _
  rw [at_self, at_row, at_col, at_one, Body.pay2_entry x2 x0 x1 x3 X Y ℓ θ R C p q h2 h0 h1 h3, h4, h5, h6]
  rfl

/-! ## Which rows each block holds -/

/-- The printed index maps, decided over the 128 points: the first table and the first labels move with the result's block row,
    the second table and the second labels with its block column, the three small arrays stay. -/
theorem idx_facts : ∀ t : Fin cfg0.N,
    win0_0.index t (0 : Fin 2) = win0_7.index t (0 : Fin 2) ∧ win0_0.index t (1 : Fin 2) = 0
    ∧ win0_1.index t (0 : Fin 2) = win0_7.index t (1 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = win0_7.index t (0 : Fin 2) ∧ win0_5.index t (1 : Fin 2) = 0
    ∧ win0_6.index t (0 : Fin 2) = 0 ∧ win0_6.index t (1 : Fin 2) = win0_7.index t (1 : Fin 2)
    ∧ win0_7.index t (0 : Fin 2) ≤ 7 ∧ win0_7.index t (1 : Fin 2) ≤ 15 :=
  (by decide +kernel : ∀ t : Fin grid0.N, _)

/-- Every block of the result is some point's. -/
theorem idx_onto : ∀ (q0 : Fin 8) (q1 : Fin 16), ∃ t : Fin cfg0.N, win0_7.index t = ![q0.val, q1.val] :=
  (by decide +kernel : ∀ (q0 : Fin 8) (q1 : Fin 16), ∃ t : Fin grid0.N, win0_7.index t = ![q0.val, q1.val])

theorem read0 (c : Dev nD) (t : Fin cfg0.N) (p : Fin 1024) (d : Fin 128) (R : Fin 8192)
    (hR : R.val = win0_7.index t (0 : Fin 2) * 1024 + p.val) :
    iblk m c 0 t (ix2 p d) = (m ((c.tc : Thread nD τ).loc main_arg0) : S8192x128.Idx → EReal) (ix2 R d) := by
  obtain ⟨e0, e1, -⟩ := idx_facts t
  show V m c main_arg0 (((cfg0.win 0).blk t).view.emb (ix2 p d)) = _
  rw [V_main_arg0]
  have e : ((cfg0.win 0).blk t).view.emb (ix2 p d) = ix2 R d := by
    funext a; apply Fin.ext
    match a with
    | ⟨0, _⟩ => show win0_0.index t (0 : Fin 2) * 1024 + 1 * p.val = R.val; omega
    | ⟨1, _⟩ => show win0_0.index t (1 : Fin 2) * 128 + 1 * d.val = d.val; omega
  exact congrArg _ e

theorem read1 (c : Dev nD) (t : Fin cfg0.N) (q : Fin 512) (d : Fin 128) (C : Fin 8192)
    (hC : C.val = win0_7.index t (1 : Fin 2) * 512 + q.val) :
    iblk m c 1 t (ix2 q d) = (m ((c.tc : Thread nD τ).loc main_arg1) : S8192x128.Idx → EReal) (ix2 C d) := by
  obtain ⟨-, -, e0, e1, -⟩ := idx_facts t
  show V m c main_arg1 (((cfg0.win 1).blk t).view.emb (ix2 q d)) = _
  rw [V_main_arg1]
  have e : ((cfg0.win 1).blk t).view.emb (ix2 q d) = ix2 C d := by
    funext a; apply Fin.ext
    match a with
    | ⟨0, _⟩ => show win0_1.index t (0 : Fin 2) * 512 + 1 * q.val = C.val; omega
    | ⟨1, _⟩ => show win0_1.index t (1 : Fin 2) * 128 + 1 * d.val = d.val; omega
  exact congrArg _ e

theorem read2 (c : Dev nD) (t : Fin cfg0.N) (d : Fin 128) :
    iblk m c 2 t (ix2 (0 : Fin 1) d) = (m ((c.tc : Thread nD τ).loc main_arg2) : S128.Idx → EReal) (ix1 d) := by
  obtain ⟨-, -, -, -, e0, e1, -⟩ := idx_facts t
  show (V m c main_v0 : S1x128.Idx → EReal) (((cfg0.win 2).blk t).view.emb (ix2 (0 : Fin 1) d)) = _
  have e : ((cfg0.win 2).blk t).view.emb (ix2 (0 : Fin 1) d) = ix2 (0 : Fin 1) d := by
    funext a; apply Fin.ext
    match a with
    | ⟨0, _⟩ => show win0_2.index t (0 : Fin 2) * 1 + 1 * 0 = 0; omega
    | ⟨1, _⟩ => show win0_2.index t (1 : Fin 2) * 128 + 1 * d.val = d.val; omega
  exact (congrArg (V m c main_v0 : S1x128.Idx → EReal) e).trans (Host.scales_at m c d)

theorem read3 (c : Dev nD) (t : Fin cfg0.N) :
    iblk m c 3 t (ix2 (0 : Fin 1) (0 : Fin 1)) = amplitude (m ((c.tc : Thread nD τ).loc main_arg3) : S1.Idx → EReal) := by
  obtain ⟨-, -, -, -, -, -, e0, e1, -⟩ := idx_facts t
  show (V m c main_v3 : S1x1.Idx → EReal) (((cfg0.win 3).blk t).view.emb (ix2 (0 : Fin 1) (0 : Fin 1))) = _
  have e : ((cfg0.win 3).blk t).view.emb (ix2 (0 : Fin 1) (0 : Fin 1)) = ix2 (0 : Fin 1) (0 : Fin 1) := by
    funext a; apply Fin.ext
    match a with
    | ⟨0, _⟩ => show win0_3.index t (0 : Fin 2) * 1 + 1 * 0 = 0; omega
    | ⟨1, _⟩ => show win0_3.index t (1 : Fin 2) * 1 + 1 * 0 = 0; omega
  exact (congrArg (V m c main_v3 : S1x1.Idx → EReal) e).trans (Host.amp_at m c)

theorem read4 (c : Dev nD) (t : Fin cfg0.N) :
    iblk m c 4 t (ix2 (0 : Fin 1) (0 : Fin 1)) = crossTask (m ((c.tc : Thread nD τ).loc main_arg4) : S1.Idx → EReal) := by
  obtain ⟨-, -, -, -, -, -, -, -, e0, e1, -⟩ := idx_facts t
  show (V m c main_v10 : S1x1.Idx → EReal) (((cfg0.win 4).blk t).view.emb (ix2 (0 : Fin 1) (0 : Fin 1))) = _
  have e : ((cfg0.win 4).blk t).view.emb (ix2 (0 : Fin 1) (0 : Fin 1)) = ix2 (0 : Fin 1) (0 : Fin 1) := by
    funext a; apply Fin.ext
    match a with
    | ⟨0, _⟩ => show win0_4.index t (0 : Fin 2) * 1 + 1 * 0 = 0; omega
    | ⟨1, _⟩ => show win0_4.index t (1 : Fin 2) * 1 + 1 * 0 = 0; omega
  exact (congrArg (V m c main_v10 : S1x1.Idx → EReal) e).trans (Host.cross_at m c)

theorem read5 (c : Dev nD) (t : Fin cfg0.N) (p : Fin 1024) (R : Fin 8192)
    (hR : R.val = win0_7.index t (0 : Fin 2) * 1024 + p.val) :
    iblk m c 5 t (ix2 p (0 : Fin 1)) = (m ((c.tc : Thread nD τ).loc main_arg5) : S8192.Idx → BitVec 32) (ix1 R) := by
  obtain ⟨-, -, -, -, -, -, -, -, -, -, e0, e1, -⟩ := idx_facts t
  show (V m c main_v11 : S8192x1.Idx → BitVec 32) (((cfg0.win 5).blk t).view.emb (ix2 p (0 : Fin 1))) = _
  have e : ((cfg0.win 5).blk t).view.emb (ix2 p (0 : Fin 1)) = ix2 R (0 : Fin 1) := by
    funext a; apply Fin.ext
    match a with
    | ⟨0, _⟩ => show win0_5.index t (0 : Fin 2) * 1024 + 1 * p.val = R.val; omega
    | ⟨1, _⟩ => show win0_5.index t (1 : Fin 2) * 1 + 1 * 0 = 0; omega
  exact (congrArg (V m c main_v11 : S8192x1.Idx → BitVec 32) e).trans (Host.task1_at m c R)

theorem read6 (c : Dev nD) (t : Fin cfg0.N) (q : Fin 512) (C : Fin 8192)
    (hC : C.val = win0_7.index t (1 : Fin 2) * 512 + q.val) :
    iblk m c 6 t (ix2 (0 : Fin 1) q) = (m ((c.tc : Thread nD τ).loc main_arg6) : S8192.Idx → BitVec 32) (ix1 C) := by
  obtain ⟨-, -, -, -, -, -, -, -, -, -, -, -, e0, e1, -⟩ := idx_facts t
  show (V m c main_v12 : S1x8192.Idx → BitVec 32) (((cfg0.win 6).blk t).view.emb (ix2 (0 : Fin 1) q)) = _
  have e : ((cfg0.win 6).blk t).view.emb (ix2 (0 : Fin 1) q) = ix2 (0 : Fin 1) C := by
    funext a; apply Fin.ext
    match a with
    | ⟨0, _⟩ => show win0_6.index t (0 : Fin 2) * 1 + 1 * 0 = 0; omega
    | ⟨1, _⟩ => show win0_6.index t (1 : Fin 2) * 512 + 1 * q.val = C.val; omega
  exact (congrArg (V m c main_v12 : S1x8192.Idx → BitVec 32) e).trans (Host.task2_at m c C)

/-! ## What a point writes back, and the whole array -/

/-- What point `t` writes back is block `t` of `K`. -/
theorem flushed_eq (c : Dev nD) (t : Fin cfg0.N) :
    (dats m 0 c).flushed 7 t = ((cfg0.win 7).blk t).view.read (Elt Ideal) (Kof m c) := by
  rw [ValueP.flushed7]
  funext j
  obtain ⟨p, q, rfl⟩ : ∃ (p : Fin 1024) (q : Fin 512), j = ix2 p q := ⟨j 0, j 1, eq_ix2 j⟩
  obtain ⟨-, -, -, -, -, -, -, -, -, -, -, -, -, -, b0, b1⟩ := idx_facts t
  have hp : p.val < 1024 := p.isLt
  have hq : q.val < 512 := q.isLt
  show out0_7 (iblk m c 0 t) (iblk m c 1 t) (iblk m c 2 t) (iblk m c 3 t) (iblk m c 4 t) (iblk m c 5 t) (iblk m c 6 t) (ix2 p q)
    = Kof m c (((cfg0.win 7).blk t).view.emb (ix2 p q))
  have e : ((cfg0.win 7).blk t).view.emb (ix2 p q)
      = ix2 (⟨win0_7.index t (0 : Fin 2) * 1024 + p.val, by omega⟩ : Fin 8192) (⟨win0_7.index t (1 : Fin 2) * 512 + q.val, by omega⟩ : Fin 8192) := by
    funext a; apply Fin.ext
    match a with
    | ⟨0, _⟩ => show win0_7.index t (0 : Fin 2) * 1024 + 1 * p.val = win0_7.index t (0 : Fin 2) * 1024 + p.val; omega
    | ⟨1, _⟩ => show win0_7.index t (1 : Fin 2) * 512 + 1 * q.val = win0_7.index t (1 : Fin 2) * 512 + q.val; omega
  rw [e]
  exact out_entry (iblk m c 0 t) (iblk m c 1 t) (iblk m c 2 t) (iblk m c 3 t) (iblk m c 4 t) (iblk m c 5 t) (iblk m c 6 t)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    ⟨win0_7.index t (0 : Fin 2) * 1024 + p.val, by omega⟩ ⟨win0_7.index t (1 : Fin 2) * 512 + q.val, by omega⟩ p q
    (fun d => read2 m c t d) (fun d => read0 m c t p d _ rfl) (fun d => read1 m c t q d _ rfl) (read3 m c t) (read4 m c t)
    (read5 m c t p _ rfl) (read6 m c t q _ rfl)

/-- An index of the array is in point `t`'s block iff each coordinate is in the block's range on its axis. -/
theorem mem_blk (t : Fin cfg0.N) (i : S8192x8192.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v13).slice (win0_7.rect t)).set ↔ _
  rw [View.set_slice_whole, Rect.mem_set_unit]
  exact Iff.rfl

/-- Every entry of the array lies in some point's block: entry `(r, c)` in block `(r / 1024, c / 512)`. -/
theorem cover (i : S8192x8192.Idx) : ∃ t : Fin cfg0.N, (cfg0.win 7).flush t = true ∧ i ∈ ((cfg0.win 7).blk t).view.set := by
  have hi0 : (i 0).val < 8192 := (i 0).isLt
  have hi1 : (i 1).val < 8192 := (i 1).isLt
  obtain ⟨t, ht⟩ := idx_onto ⟨(i 0).val / 1024, by omega⟩ ⟨(i 1).val / 512, by omega⟩
  have q0 : win0_7.index t (0 : Fin 2) = (i 0).val / 1024 := congrFun ht 0
  have q1 : win0_7.index t (1 : Fin 2) = (i 1).val / 512 := congrFun ht 1
  refine ⟨t, flush0_7 t, ?_⟩
  rw [mem_blk]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 512 ≤ (i 1).val ∧ (i 1).val < win0_7.index t (1 : Fin 2) * 512 + 512; omega

/-- The result array after the run is `K` of the arguments. -/
theorem final (c : Dev nD) : (dats m 0 c).arrAt 7 cfg0.N = Kof m c :=
  (dats m 0 c).arrAt_eq_of_cover 7 (Kof m c) (fun t _ => flushed_eq m c t) cover

/-- The kernel's run: it ends with the result at `K` of the arguments and the arguments unchanged. -/
theorem run : θ_run defs (onTc (τ := τ) (main (F := Ideal))) ⟨m, fun _ => 0, ρ⟩ fun r => ∀ c : Dev nD,
      r.2.mem ((c : Thread nD τ).loc main_v13) = Kof m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (ValueP.run_blocks m ρ)

end Cert.Tgp.Blocks

end
-- ==== Proof.lean ====
/-
  A masked squared-exponential (ARD-RBF) matrix: a tiled kernel against its plain reference, on the extended reals.

  From two tables of 8192 points in 128 coordinates, a vector of log length scales `ℓ`, a log amplitude `θ`, a task
  parameter `b` and two vectors of task labels, both programs compute

      K (r, c) = exp θ · exp (-½ · max (‖a_r‖² + ‖b_c‖² - 2 ⟨a_r, b_c⟩, 0)) · (if task₁ r ≠ task₂ c then λ else 1),

  with `a_r = x_r / exp ℓ`, `b_c = y_c / exp ℓ` and `λ = min (1, max (0, 2 / (1 + exp b) - 1))` (Proof/Spec.lean).

  The reference evaluates this with whole-array operations (Proof/RefIsSpec.lean reads its host program one operation at a
  time). The kernel walks an 8 × 16 grid; at point `(i, j)` it holds 1024 rows of the first table and 512 rows of the
  second, computes their scaled squared norms by row sums and their inner products by one matrix product, and writes the
  `1024 × 512` block `(i, j)` of the result (Proof/Body.lean: the body at an entry; Proof/Host.lean: the five small
  arrays the host prepares; Proof/Blocks.lean: the blocks tile the array). On the extended reals the narrowing of the
  matrix product's operands is the identity, a sum is a sum whatever its order, and the two programs apply the same
  operations with the same constants in the same order to the same entries, so the two results are equal entry by
  entry with no arithmetic law beyond `0 + s = s` for the sums' initial value: the inputs' finiteness is not used.

  The kernel does not change its arguments (the generated frames), the reference does not either (its run), and the
  idealized kernel is the kernel's own text read on the extended reals (no rewrite to account for).
-/
import proofs.«113448_j21036749815950_1_alg».proof.Defs
import proofs.«113448_j21036749815950_1_alg».proof.Proof.Gen.Kernel
import proofs.«113448_j21036749815950_1_alg».proof.Proof.Gen.Kernel.Skeleton
import proofs.«113448_j21036749815950_1_alg».proof.Proof.Gen.Kernel.Launch
import proofs.«113448_j21036749815950_1_alg».proof.Proof.Gen.Kernel.Points
import proofs.«113448_j21036749815950_1_alg».proof.Proof.Gen.Kernel.Frame
import proofs.«113448_j21036749815950_1_alg».proof.Proof.Gen.KernelIdeal
import proofs.«113448_j21036749815950_1_alg».proof.Proof.Gen.KernelIdeal.Skeleton
import proofs.«113448_j21036749815950_1_alg».proof.Proof.Gen.KernelIdeal.Launch
import proofs.«113448_j21036749815950_1_alg».proof.Proof.Gen.KernelIdeal.Points
import proofs.«113448_j21036749815950_1_alg».proof.Proof.Gen.KernelIdeal.Frame
import proofs.«113448_j21036749815950_1_alg».proof.Proof.Gen.ReferenceIdeal
import proofs.«113448_j21036749815950_1_alg».proof.Proof.Gen.Pre_finite_inputs
import proofs.«113448_j21036749815950_1_alg».proof.Proof.Gen.ReferenceIdeal.Run
import proofs.«113448_j21036749815950_1_alg».proof.Proof.Gen.ReferenceIdeal.Read
import proofs.«113448_j21036749815950_1_alg».proof.Proof.RefIsSpec
import proofs.«113448_j21036749815950_1_alg».proof.Proof.Blocks
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: nothing was rewritten. -/
theorem preserves : Cert.preserves_Kernel_KernelIdeal := trivial

/-- From memories that agree on the seven arguments both programs end with the matrix `K` of those arguments. -/
theorem algebraic : Cert.algebraic_KernelIdeal_ReferenceIdeal := by
  intro m ρ m' ρ' _ hagree
  refine ⟨fun c => Cert.Tgp.Blocks.Kof m c, Cert.Tgp.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  exact (Cert.ReferenceIdeal.Read.val_main_v42_eq _ _ _ _ _ _ _).trans (Cert.Tgp.Ref.ref_is_K _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
